-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6561x1 : Shape := ⟨2, ![6561, 1]⟩
abbrev S3x3 : Shape := ⟨2, ![3, 3]⟩
abbrev S_ : Shape := ⟨0, ![]⟩

class Facts : Prop where
  bcast_S_S6561x1 : S_.BroadcastsInDim S6561x1 (![] : Fin 0 → Fin S6561x1.rank)
  reducesTo_S6561x1_S_d0_1 : S6561x1.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S6561x1 .f32) (main_arg1 : FVec F S3x3 .f32) : IVec S_ 1 :=
  let main_v0 : FVec F S6561x1 .f32 := Host.absf main_arg0
  let main_cst : FVec F S_ .f32 := constant S_ .f32 0x7F800000#32
  let main_v1 : FVec F S6561x1 .f32 := broadcastInDim S6561x1 ![] bcast_S_S6561x1 main_cst
  let main_v2 : IVec S6561x1 1 := cmpf .olt main_v0 main_v1
  let main_c : IVec S_ 1 := constantI S_ 1 1#1
  let main_v3 : IVec S_ 1 := (fun x v => Host.reduce IntOp.andi x v reducesTo_S6561x1_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  main_v8
-- ==== Kernel.lean ====
abbrev S6561x1 : Shape := ⟨2, ![6561, 1]⟩
abbrev S3x3 : Shape := ⟨2, ![3, 3]⟩
abbrev S_ : Shape := ⟨0, ![]⟩
abbrev S1x1 : Shape := ⟨2, ![1, 1]⟩
abbrev S1x1x1x1 : Shape := ⟨4, ![1, 1, 1, 1]⟩
abbrev S1x3x1x3 : Shape := ⟨4, ![1, 3, 1, 3]⟩
abbrev S3x1x3x1 : Shape := ⟨4, ![3, 1, 3, 1]⟩
abbrev S3x3x3x3 : Shape := ⟨4, ![3, 3, 3, 3]⟩
abbrev S9x9 : Shape := ⟨2, ![9, 9]⟩
abbrev S9x1x9x1 : Shape := ⟨4, ![9, 1, 9, 1]⟩
abbrev S9x3x9x3 : Shape := ⟨4, ![9, 3, 9, 3]⟩
abbrev S27x27 : Shape := ⟨2, ![27, 27]⟩
abbrev S27x1x27x1 : Shape := ⟨4, ![27, 1, 27, 1]⟩
abbrev S27x3x27x3 : Shape := ⟨4, ![27, 3, 27, 3]⟩
abbrev S81x81 : Shape := ⟨2, ![81, 81]⟩
abbrev S81x1x81x1 : Shape := ⟨4, ![81, 1, 81, 1]⟩
abbrev S81x3x81x3 : Shape := ⟨4, ![81, 3, 81, 3]⟩
abbrev S243x243 : Shape := ⟨2, ![243, 243]⟩
abbrev S243x1x243x1 : Shape := ⟨4, ![243, 1, 243, 1]⟩
abbrev S243x3x243x3 : Shape := ⟨4, ![243, 3, 243, 3]⟩
abbrev S729x729 : Shape := ⟨2, ![729, 729]⟩
abbrev S729x1x729x1 : Shape := ⟨4, ![729, 1, 729, 1]⟩
abbrev S729x3x729x3 : Shape := ⟨4, ![729, 3, 729, 3]⟩
abbrev S2187x2187 : Shape := ⟨2, ![2187, 2187]⟩
abbrev S2187x1x2187x1 : Shape := ⟨4, ![2187, 1, 2187, 1]⟩
abbrev S2187x3x2187x3 : Shape := ⟨4, ![2187, 3, 2187, 3]⟩
abbrev S6561x6561 : Shape := ⟨2, ![6561, 6561]⟩
abbrev S6656x6656 : Shape := ⟨2, ![6656, 6656]⟩
abbrev S6561 : Shape := ⟨1, ![6561]⟩
abbrev S6656 : Shape := ⟨1, ![6656]⟩
abbrev S1x6656 : Shape := ⟨2, ![1, 6656]⟩
abbrev S6656x1 : Shape := ⟨2, ![6656, 1]⟩
abbrev S256x6656 : Shape := ⟨2, ![256, 6656]⟩
abbrev S256x1 : Shape := ⟨2, ![256, 1]⟩
abbrev S256 : Shape := ⟨1, ![256]⟩

abbrev nBuf : Space → Nat
  | .hbm => 74
  | .vmem => 5
  | .smem => 0
  | _ => 0

abbrev bufTy : (tb : Table) → Fin (tcTables nBuf tb) → BufTy
  | .hbm, ⟨0, _⟩ => ⟨S6561x1, .f32⟩
  | .hbm, ⟨1, _⟩ => ⟨S3x3, .f32⟩
  | .hbm, ⟨2, _⟩ => ⟨S3x3, .i32⟩
  | .hbm, ⟨3, _⟩ => ⟨S3x3, .i32⟩
  | .hbm, ⟨4, _⟩ => ⟨S_, .i32⟩
  | .hbm, ⟨5, _⟩ => ⟨S3x3, .i32⟩
  | .hbm, ⟨6, _⟩ => ⟨S3x3, .i32⟩
  | .hbm, ⟨7, _⟩ => ⟨S3x3, .i1⟩
  | .hbm, ⟨8, _⟩ => ⟨S3x3, .f32⟩
  | .hbm, ⟨9, _⟩ => ⟨S1x1, .i32⟩
  | .hbm, ⟨10, _⟩ => ⟨S1x1, .i32⟩
  | .hbm, ⟨11, _⟩ => ⟨S_, .i32⟩
  | .hbm, ⟨12, _⟩ => ⟨S1x1, .i32⟩
  | .hbm, ⟨13, _⟩ => ⟨S1x1, .i32⟩
  | .hbm, ⟨14, _⟩ => ⟨S1x1, .i1⟩
  | .hbm, ⟨15, _⟩ => ⟨S1x1, .f32⟩
  | .hbm, ⟨16, _⟩ => ⟨S1x1x1x1, .f32⟩
  | .hbm, ⟨17, _⟩ => ⟨S1x3x1x3, .f32⟩
  | .hbm, ⟨18, _⟩ => ⟨S1x3x1x3, .f32⟩
  | .hbm, ⟨19, _⟩ => ⟨S1x3x1x3, .f32⟩
  | .hbm, ⟨20, _⟩ => ⟨S3x3, .f32⟩
  | .hbm, ⟨21, _⟩ => ⟨S3x1x3x1, .f32⟩
  | .hbm, ⟨22, _⟩ => ⟨S1x3x1x3, .f32⟩
  | .hbm, ⟨23, _⟩ => ⟨S3x3x3x3, .f32⟩
  | .hbm, ⟨24, _⟩ => ⟨S3x3x3x3, .f32⟩
  | .hbm, ⟨25, _⟩ => ⟨S3x3x3x3, .f32⟩
  | .hbm, ⟨26, _⟩ => ⟨S9x9, .f32⟩
  | .hbm, ⟨27, _⟩ => ⟨S9x1x9x1, .f32⟩
  | .hbm, ⟨28, _⟩ => ⟨S1x3x1x3, .f32⟩
  | .hbm, ⟨29, _⟩ => ⟨S9x3x9x3, .f32⟩
  | .hbm, ⟨30, _⟩ => ⟨S9x3x9x3, .f32⟩
  | .hbm, ⟨31, _⟩ => ⟨S9x3x9x3, .f32⟩
  | .hbm, ⟨32, _⟩ => ⟨S27x27, .f32⟩
  | .hbm, ⟨33, _⟩ => ⟨S27x1x27x1, .f32⟩
  | .hbm, ⟨34, _⟩ => ⟨S1x3x1x3, .f32⟩
  | .hbm, ⟨35, _⟩ => ⟨S27x3x27x3, .f32⟩
  | .hbm, ⟨36, _⟩ => ⟨S27x3x27x3, .f32⟩
  | .hbm, ⟨37, _⟩ => ⟨S27x3x27x3, .f32⟩
  | .hbm, ⟨38, _⟩ => ⟨S81x81, .f32⟩
  | .hbm, ⟨39, _⟩ => ⟨S81x1x81x1, .f32⟩
  | .hbm, ⟨40, _⟩ => ⟨S1x3x1x3, .f32⟩
  | .hbm, ⟨41, _⟩ => ⟨S81x3x81x3, .f32⟩
  | .hbm, ⟨42, _⟩ => ⟨S81x3x81x3, .f32⟩
  | .hbm, ⟨43, _⟩ => ⟨S81x3x81x3, .f32⟩
  | .hbm, ⟨44, _⟩ => ⟨S243x243, .f32⟩
  | .hbm, ⟨45, _⟩ => ⟨S243x1x243x1, .f32⟩
  | .hbm, ⟨46, _⟩ => ⟨S1x3x1x3, .f32⟩
  | .hbm, ⟨47, _⟩ => ⟨S243x3x243x3, .f32⟩
  | .hbm, ⟨48, _⟩ => ⟨S243x3x243x3, .f32⟩
  | .hbm, ⟨49, _⟩ => ⟨S243x3x243x3, .f32⟩
  | .hbm, ⟨50, _⟩ => ⟨S729x729, .f32⟩
  | .hbm, ⟨51, _⟩ => ⟨S729x1x729x1, .f32⟩
  | .hbm, ⟨52, _⟩ => ⟨S1x3x1x3, .f32⟩
  | .hbm, ⟨53, _⟩ => ⟨S729x3x729x3, .f32⟩
  | .hbm, ⟨54, _⟩ => ⟨S729x3x729x3, .f32⟩
  | .hbm, ⟨55, _⟩ => ⟨S729x3x729x3, .f32⟩
  | .hbm, ⟨56, _⟩ => ⟨S2187x2187, .f32⟩
  | .hbm, ⟨57, _⟩ => ⟨S2187x1x2187x1, .f32⟩
  | .hbm, ⟨58, _⟩ => ⟨S1x3x1x3, .f32⟩
  | .hbm, ⟨59, _⟩ => ⟨S2187x3x2187x3, .f32⟩
  | .hbm, ⟨60, _⟩ => ⟨S2187x3x2187x3, .f32⟩
  | .hbm, ⟨61, _⟩ => ⟨S2187x3x2187x3, .f32⟩
  | .hbm, ⟨62, _⟩ => ⟨S6561x6561, .f32⟩
  | .hbm, ⟨63, _⟩ => ⟨S_, .i32⟩
  | .hbm, ⟨64, _⟩ => ⟨S_, .f32⟩
  | .hbm, ⟨65, _⟩ => ⟨S6656x6656, .f32⟩
  | .hbm, ⟨66, _⟩ => ⟨S6656x6656, .bf16⟩
  | .hbm, ⟨67, _⟩ => ⟨S6561, .f32⟩
  | .hbm, ⟨68, _⟩ => ⟨S_, .i32⟩
  | .hbm, ⟨69, _⟩ => ⟨S_, .f32⟩
  | .hbm, ⟨70, _⟩ => ⟨S6656, .f32⟩
  | .hbm, ⟨71, _⟩ => ⟨S1x6656, .f32⟩
  | .hbm, ⟨72, _⟩ => ⟨S6656x1, .f32⟩
  | .hbm, ⟨73, _⟩ => ⟨S6561x1, .f32⟩
  | .local _ .vmem, ⟨0, _⟩ => ⟨S256x6656, .bf16⟩
  | .local _ .vmem, ⟨1, _⟩ => ⟨S256x6656, .bf16⟩
  | .local _ .vmem, ⟨2, _⟩ => ⟨S1x6656, .f32⟩
  | .local _ .vmem, ⟨3, _⟩ => ⟨S256x1, .f32⟩
  | .local _ .vmem, ⟨4, _⟩ => ⟨S256x1, .f32⟩
  | _, _ => ⟨S6561x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v12 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v14 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v15 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_v16 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v17 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_v18 : Ref sig .tc := ⟨.hbm, 56, rfl⟩
abbrev main_call7_v0 : Ref sig .tc := ⟨.hbm, 57, rfl⟩
abbrev main_call7_v1 : Ref sig .tc := ⟨.hbm, 58, rfl⟩
abbrev main_call7_v2 : Ref sig .tc := ⟨.hbm, 59, rfl⟩
abbrev main_call7_v3 : Ref sig .tc := ⟨.hbm, 60, rfl⟩
abbrev main_call7_v4 : Ref sig .tc := ⟨.hbm, 61, rfl⟩
abbrev main_v19 : Ref sig .tc := ⟨.hbm, 62, rfl⟩
abbrev main_c_1 : Ref sig .tc := ⟨.hbm, 63, rfl⟩
abbrev main_call8_v0 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_c_2 : Ref sig .tc := ⟨.hbm, 68, rfl⟩
abbrev main_call9_v0 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6656 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S3x3 : S_.BroadcastsInDim S3x3 (![] : Fin 0 → Fin S3x3.rank)
  bcast_S_S1x1 : S_.BroadcastsInDim S1x1 (![] : Fin 0 → Fin S1x1.rank)
  bcast_S1x1_S1x1x1x1_0_2 : S1x1.BroadcastsInDim S1x1x1x1 (![0, 2] : Fin 2 → Fin S1x1x1x1.rank)
  bcast_S3x3_S1x3x1x3_1_3 : S3x3.BroadcastsInDim S1x3x1x3 (![1, 3] : Fin 2 → Fin S1x3x1x3.rank)
  bcast_S1x1x1x1_S1x3x1x3_0_1_2_3 : S1x1x1x1.BroadcastsInDim S1x3x1x3 (![0, 1, 2, 3] : Fin 4 → Fin S1x3x1x3.rank)
  shapeCasts_S1x3x1x3_S3x3 : S1x3x1x3.ShapeCasts S3x3
  bcast_S3x3_S3x1x3x1_0_2 : S3x3.BroadcastsInDim S3x1x3x1 (![0, 2] : Fin 2 → Fin S3x1x3x1.rank)
  bcast_S3x1x3x1_S3x3x3x3_0_1_2_3 : S3x1x3x1.BroadcastsInDim S3x3x3x3 (![0, 1, 2, 3] : Fin 4 → Fin S3x3x3x3.rank)
  bcast_S1x3x1x3_S3x3x3x3_0_1_2_3 : S1x3x1x3.BroadcastsInDim S3x3x3x3 (![0, 1, 2, 3] : Fin 4 → Fin S3x3x3x3.rank)
  shapeCasts_S3x3x3x3_S9x9 : S3x3x3x3.ShapeCasts S9x9
  bcast_S9x9_S9x1x9x1_0_2 : S9x9.BroadcastsInDim S9x1x9x1 (![0, 2] : Fin 2 → Fin S9x1x9x1.rank)
  bcast_S9x1x9x1_S9x3x9x3_0_1_2_3 : S9x1x9x1.BroadcastsInDim S9x3x9x3 (![0, 1, 2, 3] : Fin 4 → Fin S9x3x9x3.rank)
  bcast_S1x3x1x3_S9x3x9x3_0_1_2_3 : S1x3x1x3.BroadcastsInDim S9x3x9x3 (![0, 1, 2, 3] : Fin 4 → Fin S9x3x9x3.rank)
  shapeCasts_S9x3x9x3_S27x27 : S9x3x9x3.ShapeCasts S27x27
  bcast_S27x27_S27x1x27x1_0_2 : S27x27.BroadcastsInDim S27x1x27x1 (![0, 2] : Fin 2 → Fin S27x1x27x1.rank)
  bcast_S27x1x27x1_S27x3x27x3_0_1_2_3 : S27x1x27x1.BroadcastsInDim S27x3x27x3 (![0, 1, 2, 3] : Fin 4 → Fin S27x3x27x3.rank)
  bcast_S1x3x1x3_S27x3x27x3_0_1_2_3 : S1x3x1x3.BroadcastsInDim S27x3x27x3 (![0, 1, 2, 3] : Fin 4 → Fin S27x3x27x3.rank)
  shapeCasts_S27x3x27x3_S81x81 : S27x3x27x3.ShapeCasts S81x81
  bcast_S81x81_S81x1x81x1_0_2 : S81x81.BroadcastsInDim S81x1x81x1 (![0, 2] : Fin 2 → Fin S81x1x81x1.rank)
  bcast_S81x1x81x1_S81x3x81x3_0_1_2_3 : S81x1x81x1.BroadcastsInDim S81x3x81x3 (![0, 1, 2, 3] : Fin 4 → Fin S81x3x81x3.rank)
  bcast_S1x3x1x3_S81x3x81x3_0_1_2_3 : S1x3x1x3.BroadcastsInDim S81x3x81x3 (![0, 1, 2, 3] : Fin 4 → Fin S81x3x81x3.rank)
  shapeCasts_S81x3x81x3_S243x243 : S81x3x81x3.ShapeCasts S243x243
  bcast_S243x243_S243x1x243x1_0_2 : S243x243.BroadcastsInDim S243x1x243x1 (![0, 2] : Fin 2 → Fin S243x1x243x1.rank)
  bcast_S243x1x243x1_S243x3x243x3_0_1_2_3 : S243x1x243x1.BroadcastsInDim S243x3x243x3 (![0, 1, 2, 3] : Fin 4 → Fin S243x3x243x3.rank)
  bcast_S1x3x1x3_S243x3x243x3_0_1_2_3 : S1x3x1x3.BroadcastsInDim S243x3x243x3 (![0, 1, 2, 3] : Fin 4 → Fin S243x3x243x3.rank)
  shapeCasts_S243x3x243x3_S729x729 : S243x3x243x3.ShapeCasts S729x729
  bcast_S729x729_S729x1x729x1_0_2 : S729x729.BroadcastsInDim S729x1x729x1 (![0, 2] : Fin 2 → Fin S729x1x729x1.rank)
  bcast_S729x1x729x1_S729x3x729x3_0_1_2_3 : S729x1x729x1.BroadcastsInDim S729x3x729x3 (![0, 1, 2, 3] : Fin 4 → Fin S729x3x729x3.rank)
  bcast_S1x3x1x3_S729x3x729x3_0_1_2_3 : S1x3x1x3.BroadcastsInDim S729x3x729x3 (![0, 1, 2, 3] : Fin 4 → Fin S729x3x729x3.rank)
  shapeCasts_S729x3x729x3_S2187x2187 : S729x3x729x3.ShapeCasts S2187x2187
  bcast_S2187x2187_S2187x1x2187x1_0_2 : S2187x2187.BroadcastsInDim S2187x1x2187x1 (![0, 2] : Fin 2 → Fin S2187x1x2187x1.rank)
  bcast_S2187x1x2187x1_S2187x3x2187x3_0_1_2_3 : S2187x1x2187x1.BroadcastsInDim S2187x3x2187x3 (![0, 1, 2, 3] : Fin 4 → Fin S2187x3x2187x3.rank)
  bcast_S1x3x1x3_S2187x3x2187x3_0_1_2_3 : S1x3x1x3.BroadcastsInDim S2187x3x2187x3 (![0, 1, 2, 3] : Fin 4 → Fin S2187x3x2187x3.rank)
  shapeCasts_S2187x3x2187x3_S6561x6561 : S2187x3x2187x3.ShapeCasts S6561x6561
  pads_S6561x6561_S6656x6656_0950_0950 : S6561x6561.Pads (![0, 0] : Fin 2 → Nat) ![95, 95] ![0, 0] S6656x6656
  h_S_ : 0 < S_.numel
  bitsLt_bf16_f32 : FTy.bits .bf16 < FTy.bits .f32
  shapeCasts_S6561x1_S6561 : S6561x1.ShapeCasts S6561
  pads_S6561_S6656_0950 : S6561.Pads (![0] : Fin 1 → Nat) ![95] ![0] S6656
  shapeCasts_S6656_S1x6656 : S6656.ShapeCasts S1x6656
  inb_S256x6656_S256x6656_0_0 : ∀ a, (![0, 0] : Fin 2 → Nat) a + S256x6656.size a ≤ S256x6656.size a
  h_S256x6656 : 0 < S256x6656.numel
  shapeCasts_S256x6656_S256x6656 : S256x6656.ShapeCasts S256x6656
  inb_S1x6656_S1x6656_0_0 : ∀ a, (![0, 0] : Fin 2 → Nat) a + S1x6656.size a ≤ S1x6656.size a
  h_S1x6656 : 0 < S1x6656.numel
  shapeCasts_S1x6656_S1x6656 : S1x6656.ShapeCasts S1x6656
  broadcasts_S1x6656_S256x6656 : S1x6656.Broadcasts S256x6656
  reduces_S256x6656_S256 : S256x6656.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  slices_S6656x1_S6561x1_0_0 : S6656x1.Slices ![0, 0] S6561x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6656.size a ≤ S6656x6656.size a
  hwx0_0 : ∀ i : grid0.Coords, EltTy.bits .bf16 = 32 ∨ (Rect.block (s := S6656x6656) S256x6656.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6656.size a ≤ S1x6656.size a
  hwx0_1 : ∀ i : grid0.Coords, EltTy.bits .f32 = 32 ∨ (Rect.block (s := S1x6656) S1x6656.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S6656x1.size a
  hwx0_2 : ∀ i : grid0.Coords, EltTy.bits .f32 = 32 ∨ (Rect.block (s := S6656x1) S256x1.size (cc0_transform_2 i) (hinb0_2 i)).WholeWords (EltTy.packing .f32)

variable [Facts₀]

abbrev win0_0 : Pipeline.Window sig grid0 :=
  Pipeline.Window.ofSpec (Memref.whole main_v21) S256x6656.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x6656.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6561x1 : Shape := ⟨2, ![6561, 1]⟩
abbrev S3x3 : Shape := ⟨2, ![3, 3]⟩
abbrev S_ : Shape := ⟨0, ![]⟩
abbrev S1x1 : Shape := ⟨2, ![1, 1]⟩
abbrev S1x1x1x1 : Shape := ⟨4, ![1, 1, 1, 1]⟩
abbrev S1x3x1x3 : Shape := ⟨4, ![1, 3, 1, 3]⟩
abbrev S3x1x3x1 : Shape := ⟨4, ![3, 1, 3, 1]⟩
abbrev S3x3x3x3 : Shape := ⟨4, ![3, 3, 3, 3]⟩
abbrev S9x9 : Shape := ⟨2, ![9, 9]⟩
abbrev S9x1x9x1 : Shape := ⟨4, ![9, 1, 9, 1]⟩
abbrev S9x3x9x3 : Shape := ⟨4, ![9, 3, 9, 3]⟩
abbrev S27x27 : Shape := ⟨2, ![27, 27]⟩
abbrev S27x1x27x1 : Shape := ⟨4, ![27, 1, 27, 1]⟩
abbrev S27x3x27x3 : Shape := ⟨4, ![27, 3, 27, 3]⟩
abbrev S81x81 : Shape := ⟨2, ![81, 81]⟩
abbrev S81x1x81x1 : Shape := ⟨4, ![81, 1, 81, 1]⟩
abbrev S81x3x81x3 : Shape := ⟨4, ![81, 3, 81, 3]⟩
abbrev S243x243 : Shape := ⟨2, ![243, 243]⟩
abbrev S243x1x243x1 : Shape := ⟨4, ![243, 1, 243, 1]⟩
abbrev S243x3x243x3 : Shape := ⟨4, ![243, 3, 243, 3]⟩
abbrev S729x729 : Shape := ⟨2, ![729, 729]⟩
abbrev S729x1x729x1 : Shape := ⟨4, ![729, 1, 729, 1]⟩
abbrev S729x3x729x3 : Shape := ⟨4, ![729, 3, 729, 3]⟩
abbrev S2187x2187 : Shape := ⟨2, ![2187, 2187]⟩
abbrev S2187x1x2187x1 : Shape := ⟨4, ![2187, 1, 2187, 1]⟩
abbrev S2187x3x2187x3 : Shape := ⟨4, ![2187, 3, 2187, 3]⟩
abbrev S6561x6561 : Shape := ⟨2, ![6561, 6561]⟩

abbrev nBuf : Space → Nat
  | .hbm => 64
  | .vmem => 0
  | .smem => 0
  | _ => 0

abbrev bufTy : (tb : Table) → Fin (tcTables nBuf tb) → BufTy
  | .hbm, ⟨0, _⟩ => ⟨S6561x1, .f32⟩
  | .hbm, ⟨1, _⟩ => ⟨S3x3, .f32⟩
  | .hbm, ⟨2, _⟩ => ⟨S3x3, .i32⟩
  | .hbm, ⟨3, _⟩ => ⟨S3x3, .i32⟩
  | .hbm, ⟨4, _⟩ => ⟨S_, .i32⟩
  | .hbm, ⟨5, _⟩ => ⟨S3x3, .i32⟩
  | .hbm, ⟨6, _⟩ => ⟨S3x3, .i32⟩
  | .hbm, ⟨7, _⟩ => ⟨S3x3, .i1⟩
  | .hbm, ⟨8, _⟩ => ⟨S3x3, .f32⟩
  | .hbm, ⟨9, _⟩ => ⟨S1x1, .i32⟩
  | .hbm, ⟨10, _⟩ => ⟨S1x1, .i32⟩
  | .hbm, ⟨11, _⟩ => ⟨S_, .i32⟩
  | .hbm, ⟨12, _⟩ => ⟨S1x1, .i32⟩
  | .hbm, ⟨13, _⟩ => ⟨S1x1, .i32⟩
  | .hbm, ⟨14, _⟩ => ⟨S1x1, .i1⟩
  | .hbm, ⟨15, _⟩ => ⟨S1x1, .f32⟩
  | .hbm, ⟨16, _⟩ => ⟨S1x1x1x1, .f32⟩
  | .hbm, ⟨17, _⟩ => ⟨S1x3x1x3, .f32⟩
  | .hbm, ⟨18, _⟩ => ⟨S1x3x1x3, .f32⟩
  | .hbm, ⟨19, _⟩ => ⟨S1x3x1x3, .f32⟩
  | .hbm, ⟨20, _⟩ => ⟨S3x3, .f32⟩
  | .hbm, ⟨21, _⟩ => ⟨S3x1x3x1, .f32⟩
  | .hbm, ⟨22, _⟩ => ⟨S1x3x1x3, .f32⟩
  | .hbm, ⟨23, _⟩ => ⟨S3x3x3x3, .f32⟩
  | .hbm, ⟨24, _⟩ => ⟨S3x3x3x3, .f32⟩
  | .hbm, ⟨25, _⟩ => ⟨S3x3x3x3, .f32⟩
  | .hbm, ⟨26, _⟩ => ⟨S9x9, .f32⟩
  | .hbm, ⟨27, _⟩ => ⟨S9x1x9x1, .f32⟩
  | .hbm, ⟨28, _⟩ => ⟨S1x3x1x3, .f32⟩
  | .hbm, ⟨29, _⟩ => ⟨S9x3x9x3, .f32⟩
  | .hbm, ⟨30, _⟩ => ⟨S9x3x9x3, .f32⟩
  | .hbm, ⟨31, _⟩ => ⟨S9x3x9x3, .f32⟩
  | .hbm, ⟨32, _⟩ => ⟨S27x27, .f32⟩
  | .hbm, ⟨33, _⟩ => ⟨S27x1x27x1, .f32⟩
  | .hbm, ⟨34, _⟩ => ⟨S1x3x1x3, .f32⟩
  | .hbm, ⟨35, _⟩ => ⟨S27x3x27x3, .f32⟩
  | .hbm, ⟨36, _⟩ => ⟨S27x3x27x3, .f32⟩
  | .hbm, ⟨37, _⟩ => ⟨S27x3x27x3, .f32⟩
  | .hbm, ⟨38, _⟩ => ⟨S81x81, .f32⟩
  | .hbm, ⟨39, _⟩ => ⟨S81x1x81x1, .f32⟩
  | .hbm, ⟨40, _⟩ => ⟨S1x3x1x3, .f32⟩
  | .hbm, ⟨41, _⟩ => ⟨S81x3x81x3, .f32⟩
  | .hbm, ⟨42, _⟩ => ⟨S81x3x81x3, .f32⟩
  | .hbm, ⟨43, _⟩ => ⟨S81x3x81x3, .f32⟩
  | .hbm, ⟨44, _⟩ => ⟨S243x243, .f32⟩
  | .hbm, ⟨45, _⟩ => ⟨S243x1x243x1, .f32⟩
  | .hbm, ⟨46, _⟩ => ⟨S1x3x1x3, .f32⟩
  | .hbm, ⟨47, _⟩ => ⟨S243x3x243x3, .f32⟩
  | .hbm, ⟨48, _⟩ => ⟨S243x3x243x3, .f32⟩
  | .hbm, ⟨49, _⟩ => ⟨S243x3x243x3, .f32⟩
  | .hbm, ⟨50, _⟩ => ⟨S729x729, .f32⟩
  | .hbm, ⟨51, _⟩ => ⟨S729x1x729x1, .f32⟩
  | .hbm, ⟨52, _⟩ => ⟨S1x3x1x3, .f32⟩
  | .hbm, ⟨53, _⟩ => ⟨S729x3x729x3, .f32⟩
  | .hbm, ⟨54, _⟩ => ⟨S729x3x729x3, .f32⟩
  | .hbm, ⟨55, _⟩ => ⟨S729x3x729x3, .f32⟩
  | .hbm, ⟨56, _⟩ => ⟨S2187x2187, .f32⟩
  | .hbm, ⟨57, _⟩ => ⟨S2187x1x2187x1, .f32⟩
  | .hbm, ⟨58, _⟩ => ⟨S1x3x1x3, .f32⟩
  | .hbm, ⟨59, _⟩ => ⟨S2187x3x2187x3, .f32⟩
  | .hbm, ⟨60, _⟩ => ⟨S2187x3x2187x3, .f32⟩
  | .hbm, ⟨61, _⟩ => ⟨S2187x3x2187x3, .f32⟩
  | .hbm, ⟨62, _⟩ => ⟨S6561x6561, .f32⟩
  | .hbm, ⟨63, _⟩ => ⟨S6561x1, .f32⟩
  | _, _ => ⟨S6561x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v12 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v14 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v15 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_v16 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v17 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_v18 : Ref sig .tc := ⟨.hbm, 56, rfl⟩
abbrev main_call7_v0 : Ref sig .tc := ⟨.hbm, 57, rfl⟩
abbrev main_call7_v1 : Ref sig .tc := ⟨.hbm, 58, rfl⟩
abbrev main_call7_v2 : Ref sig .tc := ⟨.hbm, 59, rfl⟩
abbrev main_call7_v3 : Ref sig .tc := ⟨.hbm, 60, rfl⟩
abbrev main_call7_v4 : Ref sig .tc := ⟨.hbm, 61, rfl⟩
abbrev main_v19 : Ref sig .tc := ⟨.hbm, 62, rfl⟩
abbrev main_v20 : Ref sig .tc := ⟨.hbm, 63, rfl⟩

abbrev nD : Nat := 1
abbrev τ : Topo := Topo.v7x

variable {F : FTy → Type} [FloatOps F]

class Facts₀ : Prop where
  bcast_S_S3x3 : S_.BroadcastsInDim S3x3 (![] : Fin 0 → Fin S3x3.rank)
  bcast_S_S1x1 : S_.BroadcastsInDim S1x1 (![] : Fin 0 → Fin S1x1.rank)
  bcast_S1x1_S1x1x1x1_0_2 : S1x1.BroadcastsInDim S1x1x1x1 (![0, 2] : Fin 2 → Fin S1x1x1x1.rank)
  bcast_S3x3_S1x3x1x3_1_3 : S3x3.BroadcastsInDim S1x3x1x3 (![1, 3] : Fin 2 → Fin S1x3x1x3.rank)
  bcast_S1x1x1x1_S1x3x1x3_0_1_2_3 : S1x1x1x1.BroadcastsInDim S1x3x1x3 (![0, 1, 2, 3] : Fin 4 → Fin S1x3x1x3.rank)
  shapeCasts_S1x3x1x3_S3x3 : S1x3x1x3.ShapeCasts S3x3
  bcast_S3x3_S3x1x3x1_0_2 : S3x3.BroadcastsInDim S3x1x3x1 (![0, 2] : Fin 2 → Fin S3x1x3x1.rank)
  bcast_S3x1x3x1_S3x3x3x3_0_1_2_3 : S3x1x3x1.BroadcastsInDim S3x3x3x3 (![0, 1, 2, 3] : Fin 4 → Fin S3x3x3x3.rank)
  bcast_S1x3x1x3_S3x3x3x3_0_1_2_3 : S1x3x1x3.BroadcastsInDim S3x3x3x3 (![0, 1, 2, 3] : Fin 4 → Fin S3x3x3x3.rank)
  shapeCasts_S3x3x3x3_S9x9 : S3x3x3x3.ShapeCasts S9x9
  bcast_S9x9_S9x1x9x1_0_2 : S9x9.BroadcastsInDim S9x1x9x1 (![0, 2] : Fin 2 → Fin S9x1x9x1.rank)
  bcast_S9x1x9x1_S9x3x9x3_0_1_2_3 : S9x1x9x1.BroadcastsInDim S9x3x9x3 (![0, 1, 2, 3] : Fin 4 → Fin S9x3x9x3.rank)
  bcast_S1x3x1x3_S9x3x9x3_0_1_2_3 : S1x3x1x3.BroadcastsInDim S9x3x9x3 (![0, 1, 2, 3] : Fin 4 → Fin S9x3x9x3.rank)
  shapeCasts_S9x3x9x3_S27x27 : S9x3x9x3.ShapeCasts S27x27
  bcast_S27x27_S27x1x27x1_0_2 : S27x27.BroadcastsInDim S27x1x27x1 (![0, 2] : Fin 2 → Fin S27x1x27x1.rank)
  bcast_S27x1x27x1_S27x3x27x3_0_1_2_3 : S27x1x27x1.BroadcastsInDim S27x3x27x3 (![0, 1, 2, 3] : Fin 4 → Fin S27x3x27x3.rank)
  bcast_S1x3x1x3_S27x3x27x3_0_1_2_3 : S1x3x1x3.BroadcastsInDim S27x3x27x3 (![0, 1, 2, 3] : Fin 4 → Fin S27x3x27x3.rank)
  shapeCasts_S27x3x27x3_S81x81 : S27x3x27x3.ShapeCasts S81x81
  bcast_S81x81_S81x1x81x1_0_2 : S81x81.BroadcastsInDim S81x1x81x1 (![0, 2] : Fin 2 → Fin S81x1x81x1.rank)
  bcast_S81x1x81x1_S81x3x81x3_0_1_2_3 : S81x1x81x1.BroadcastsInDim S81x3x81x3 (![0, 1, 2, 3] : Fin 4 → Fin S81x3x81x3.rank)
  bcast_S1x3x1x3_S81x3x81x3_0_1_2_3 : S1x3x1x3.BroadcastsInDim S81x3x81x3 (![0, 1, 2, 3] : Fin 4 → Fin S81x3x81x3.rank)
  shapeCasts_S81x3x81x3_S243x243 : S81x3x81x3.ShapeCasts S243x243
  bcast_S243x243_S243x1x243x1_0_2 : S243x243.BroadcastsInDim S243x1x243x1 (![0, 2] : Fin 2 → Fin S243x1x243x1.rank)
  bcast_S243x1x243x1_S243x3x243x3_0_1_2_3 : S243x1x243x1.BroadcastsInDim S243x3x243x3 (![0, 1, 2, 3] : Fin 4 → Fin S243x3x243x3.rank)
  bcast_S1x3x1x3_S243x3x243x3_0_1_2_3 : S1x3x1x3.BroadcastsInDim S243x3x243x3 (![0, 1, 2, 3] : Fin 4 → Fin S243x3x243x3.rank)
  shapeCasts_S243x3x243x3_S729x729 : S243x3x243x3.ShapeCasts S729x729
  bcast_S729x729_S729x1x729x1_0_2 : S729x729.BroadcastsInDim S729x1x729x1 (![0, 2] : Fin 2 → Fin S729x1x729x1.rank)
  bcast_S729x1x729x1_S729x3x729x3_0_1_2_3 : S729x1x729x1.BroadcastsInDim S729x3x729x3 (![0, 1, 2, 3] : Fin 4 → Fin S729x3x729x3.rank)
  bcast_S1x3x1x3_S729x3x729x3_0_1_2_3 : S1x3x1x3.BroadcastsInDim S729x3x729x3 (![0, 1, 2, 3] : Fin 4 → Fin S729x3x729x3.rank)
  shapeCasts_S729x3x729x3_S2187x2187 : S729x3x729x3.ShapeCasts S2187x2187
  bcast_S2187x2187_S2187x1x2187x1_0_2 : S2187x2187.BroadcastsInDim S2187x1x2187x1 (![0, 2] : Fin 2 → Fin S2187x1x2187x1.rank)
  bcast_S2187x1x2187x1_S2187x3x2187x3_0_1_2_3 : S2187x1x2187x1.BroadcastsInDim S2187x3x2187x3 (![0, 1, 2, 3] : Fin 4 → Fin S2187x3x2187x3.rank)
  bcast_S1x3x1x3_S2187x3x2187x3_0_1_2_3 : S1x3x1x3.BroadcastsInDim S2187x3x2187x3 (![0, 1, 2, 3] : Fin 4 → Fin S2187x3x2187x3.rank)
  shapeCasts_S2187x3x2187x3_S6561x6561 : S2187x3x2187x3.ShapeCasts S6561x6561
  dot_S6561x6561_S6561x1_S6561x1_1_0_0_1_n_n_wf : DotDims.WF S6561x6561 S6561x1 S6561x1 [1] [0] [0] [1] [] []

variable [Facts₀]

def dot_S6561x6561_S6561x1_S6561x1_1_0_0_1_n_n : DotDims S6561x6561 S6561x1 S6561x1 where
  lhsContracting := [1]
  rhsContracting := [0]
  lhsNonContracting := [0]
  rhsNonContracting := [1]
  lhsBatch := []
  rhsBatch := []
  wf := dot_S6561x6561_S6561x1_S6561x1_1_0_0_1_n_n_wf

class Facts : Prop extends Facts₀ where

variable [Facts]
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.RowDot.lean ====
/-
  One row of a matrix against a vector, on the extended reals.

  `rowDots A B` is the column whose entry `r` is `∑ k, A (r, k) * B (0, k)`: every row of an `[a, b]` matrix multiplied
  entry by entry with the one row of a `[1, b]` array and summed. A block body that widens its `[a, b]` block, multiplies
  it by the broadcast row, sums over the lanes (accumulator the neutral zero) and keeps the sums as a column computes
  exactly that on its block (`rowDot_body_apply`). A sum whose trailing terms vanish is the sum of the leading ones
  (`sum_padded`): the form in which zero padding of the contracted axis drops out.
-/
import Idealize.ShloMosaic.PureOps.Ideal.Laws
import Idealize.ShloMosaic.Lib.ValueIdx
import Idealize.ShloMosaic.Lib.ValueLayout
import Idealize.ShloMosaic.Lib.Pipeline.Value
import proofs.«119631_j549755814197_1_alg».proof.Proof.LibKeepdims

noncomputable section

namespace Cert.RowDot

open Idealize.ShloMosaic Idealize.ShloMosaic.ValueIdx

/-- A sum of `n + p` terms whose last `p` are zero is the sum of the first `n`. -/
theorem sum_padded {n p : ℕ} (f : Fin (n + p) → EReal) (h : ∀ k : Fin p, f (Fin.natAdd n k) = 0) :
    ∑ k, f k = ∑ k : Fin n, f (Fin.castAdd p k) := by
  rw [Fin.sum_univ_add, Finset.sum_eq_zero (fun k _ => h k), add_zero]

/-- Every row of `A` against the one row of `B`: entry `(r, 0)` is `∑ k, A (r, k) * B (0, k)`. -/
def rowDots {a b : ℕ} (A : (⟨2, ![a, b]⟩ : Shape).Idx → EReal) (B : (⟨2, ![1, b]⟩ : Shape).Idx → EReal) :
    (⟨2, ![a, 1]⟩ : Shape).Idx → EReal :=
  fun j => ∑ k : Fin b, A (ix2 (n0 := a) (j 0) k) * B (ix2 (0 : Fin 1) k)

theorem rowDots_apply {a b : ℕ} (A : (⟨2, ![a, b]⟩ : Shape).Idx → EReal) (B : (⟨2, ![1, b]⟩ : Shape).Idx → EReal)
    (p : Fin a) (u : Fin 1) : rowDots A B (ix2 p u) = ∑ k : Fin b, A (ix2 p k) * B (ix2 (0 : Fin 1) k) := rfl

/-- One product of the block body's lane sum: the widened block times the broadcast row, at `(p, k)`. -/
theorem rowDot_term_apply {a b : ℕ} (x0 : FVec Ideal ⟨2, ![a, b]⟩ .bf16) (x1 : FVec Ideal ⟨2, ![1, b]⟩ .f32)
    (hc0 : (⟨2, ![a, b]⟩ : Shape).ShapeCasts ⟨2, ![a, b]⟩) (hw : FTy.bits .bf16 < FTy.bits .f32)
    (hc1 : (⟨2, ![1, b]⟩ : Shape).ShapeCasts ⟨2, ![1, b]⟩) (hb : (⟨2, ![1, b]⟩ : Shape).Broadcasts ⟨2, ![a, b]⟩)
    (p : Fin a) (k : Fin b) :
    mulf (extf .f32 (shapeCast ⟨2, ![a, b]⟩ x0 hc0) hw) (broadcastTo ⟨2, ![a, b]⟩ (shapeCast ⟨2, ![1, b]⟩ x1 hc1) hb) (ix2 p k)
      = (x0 (ix2 p k) : EReal) * (x1 (ix2 (0 : Fin 1) k) : EReal) := by
  show (shapeCast ⟨2, ![a, b]⟩ x0 hc0) (ix2 p k) * (broadcastTo ⟨2, ![a, b]⟩ (shapeCast ⟨2, ![1, b]⟩ x1 hc1) hb) (ix2 p k) = _
  rw [broadcastTo_1b_ab_apply, shapeCast_self, shapeCast_self]

/-- The block body: a bf16 `[a, b]` block widened, times the `[1, b]` row broadcast down the rows, summed over the lanes
    from the neutral zero and kept as an `[a, 1]` column, reads at `(p, u)` the dot product of row `p` with the row. -/
theorem rowDot_body_apply {a b : ℕ} (x0 : FVec Ideal ⟨2, ![a, b]⟩ .bf16) (x1 : FVec Ideal ⟨2, ![1, b]⟩ .f32)
    (hc0 : (⟨2, ![a, b]⟩ : Shape).ShapeCasts ⟨2, ![a, b]⟩) (hw : FTy.bits .bf16 < FTy.bits .f32)
    (hc1 : (⟨2, ![1, b]⟩ : Shape).ShapeCasts ⟨2, ![1, b]⟩) (hb : (⟨2, ![1, b]⟩ : Shape).Broadcasts ⟨2, ![a, b]⟩)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (p : Fin a) (u : Fin 1) :
    shapeCast ⟨2, ![a, 1]⟩ (multiReduction .add [(1 : Fin 2)] ⟨1, ![a]⟩
        (mulf (extf .f32 (shapeCast ⟨2, ![a, b]⟩ x0 hc0) hw) (broadcastTo ⟨2, ![a, b]⟩ (shapeCast ⟨2, ![1, b]⟩ x1 hc1) hb))
        0x00000000#32 h hφ hacc) hc (ix2 p u)
      = ∑ k : Fin b, (x0 (ix2 p k) : EReal) * (x1 (ix2 (0 : Fin 1) k) : EReal) := by
  refine (LibKeepdims.shapeCast_a_a1_apply _ hc p u).trans ?_
  refine (Ideal.multiReduction_add_single _ _ h hφ hacc (ix1 p)).trans ?_
  exact Finset.sum_congr rfl fun k _ =>
    (congrArg (mulf (extf .f32 (shapeCast ⟨2, ![a, b]⟩ x0 hc0) hw) (broadcastTo ⟨2, ![a, b]⟩ (shapeCast ⟨2, ![1, b]⟩ x1 hc1) hb))
      (LibKeepdims.lift_ix1 h p k)).trans (rowDot_term_apply x0 x1 hc0 hw hc1 hb p k)

end Cert.RowDot

end
-- ==== Proof.KernelRow.lean ====
/-
  The kernel body's stored value at an index: row `p` of the `[256, 6656]` block against the `[1, 6656]` row.
-/
import proofs.«119631_j549755814197_1_alg».proof.Proof.Gen.KernelIdeal.Skeleton
import proofs.«119631_j549755814197_1_alg».proof.Proof.RowDot

noncomputable section

namespace Cert.KernelIdeal.Hand

open Idealize.ShloMosaic Idealize.ShloMosaic.ValueIdx Cert.KernelIdeal Cert.KernelIdeal.Gen

/-- What the body stores, at `(p, u)` of its `[256, 1]` block: `∑ k, x0 (p, k) * x1 (0, k)` over the 6656 lanes. -/
theorem pay_apply (x0 : FVec Ideal S256x6656 .bf16) (x1 : FVec Ideal S1x6656 .f32) (p : Fin 256) (u : Fin 1) :
    k0_pay1 (F := Ideal) x0 x1 (ix2 p u) = ∑ k : Fin 6656, (x0 (ix2 p k) : EReal) * (x1 (ix2 (0 : Fin 1) k) : EReal) := by
  unfold k0_pay1
  exact RowDot.rowDot_body_apply x0 x1 _ _ _ _ _ _ _ _ p u

end Cert.KernelIdeal.Hand

end
-- ==== Proof.KernelArray.lean ====
/-
  The kernel's result array after the run, as one function of the two arrays the region is launched on.

  The region's grid has 26 points; point `t` reads rows `256 t … 256 t + 255` of the `[6656, 6656]` matrix and the whole
  `[1, 6656]` row, and writes rows `256 t … 256 t + 255` of the `[6656, 1]` output: row `r` of the output is the dot
  product of row `r` of the matrix with the row (`RowDot.rowDots`). The 26 blocks tile the output, so the array ends
  holding that column whole; the host line after the region keeps its first 6561 rows.
-/
import proofs.«119631_j549755814197_1_alg».proof.Proof.Gen.KernelIdeal.Frame
import proofs.«119631_j549755814197_1_alg».proof.Proof.KernelRow
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The padded matrix as the region finds it. -/
def uArr (c : Dev nD) : S6656x6656.Idx → EReal := V m c main_v21
/-- The padded row as the region finds it. -/
def xRow (c : Dev nD) : S1x6656.Idx → EReal := V m c main_v24

theorem hz : (![0, 0] : Fin 2 → Nat) = fun _ => 0 := funext fun a => by fin_cases a <;> rfl

/-- The printed index maps over the grid: the matrix's and the output's block row is the point, the row's block is fixed. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix window's block at point `t` is rows `256 t …` of the matrix. -/
theorem ublk_apply (c : Dev nD) (t : Fin cfg0.N) (p : Fin 256) (k : Fin 6656) (r : Fin 6656)
    (hr : r.val = t.val * 256 + p.val) :
    (iblk m c 0 t : FVec Ideal S256x6656 .bf16) (ix2 p k) = uArr m c (ix2 r k) := by
  obtain ⟨e0, e1, -⟩ := idx_facts t
  unfold iblk uArr
  rw [View.read_apply]
  show V m c main_v21 _ = V m c main_v21 _
  congr 1
  funext a
  apply Fin.ext
  match a with
  | ⟨0, _⟩ => show win0_0.index t (0 : Fin 2) * 256 + 1 * p.val = r.val; omega
  | ⟨1, _⟩ => show win0_0.index t (1 : Fin 2) * 6656 + 1 * k.val = k.val; omega

/-- The row window's block at every point is the row. -/
theorem xblk_apply (c : Dev nD) (t : Fin cfg0.N) (k : Fin 6656) :
    (iblk m c 1 t : FVec Ideal S1x6656 .f32) (ix2 (0 : Fin 1) k) = xRow m c (ix2 (0 : Fin 1) k) := by
  obtain ⟨-, -, e2, e3, -⟩ := idx_facts t
  unfold iblk xRow
  rw [View.read_apply]
  show V m c main_v24 _ = V m c main_v24 _
  congr 1
  funext a
  apply Fin.ext
  match a with
  | ⟨0, _⟩ => show win0_1.index t (0 : Fin 2) * 1 + 1 * 0 = 0; omega
  | ⟨1, _⟩ => show win0_1.index t (1 : Fin 2) * 6656 + 1 * k.val = k.val; omega

/-- What point `t` writes back is block `t` of the column of row dot products. -/
theorem flushed_eq (c : Dev nD) (t : Fin cfg0.N) :
    (dats m 0 c).flushed 2 t = ((cfg0.win 2).blk t).view.read (Elt Ideal) (RowDot.rowDots (uArr m c) (xRow m c)) := by
  show (cfg0.win 2).cut (grid0.coords t) ((dats m 0 c).after 2 t) = _
  rw [after0_2]
  unfold out0_2
  rw [View.canon_unit_zero hz]
  simp only [View.ld_unit_zero (S := S256x6656) hz, View.ld_unit_zero (S := S1x6656) hz]
  funext j
  obtain ⟨p, u, rfl⟩ : ∃ (p : Fin 256) (u : Fin 1), j = ix2 p u := ⟨j 0, j 1, eq_ix2 j⟩
  have hN : cfg0.N = 26 := N_0
  obtain ⟨-, -, -, -, e4, e5⟩ := idx_facts t
  have hr : t.val * 256 + p.val < 6656 := by have := t.isLt; have := p.isLt; omega
  have hemb : ((cfg0.win 2).blk t).view.emb (ix2 p u) = (ix2 ⟨t.val * 256 + p.val, hr⟩ u : S6656x1.Idx) := by
    funext a; apply Fin.ext
    match a with
    | ⟨0, _⟩ => show win0_2.index t (0 : Fin 2) * 256 + 1 * p.val = t.val * 256 + p.val; omega
    | ⟨1, _⟩ => show win0_2.index t (1 : Fin 2) * 1 + 1 * u.val = u.val; omega
  show k0_pay1 (F := Ideal) (iblk m c 0 t) (iblk m c 1 t) (ix2 p u)
    = RowDot.rowDots (uArr m c) (xRow m c) (((cfg0.win 2).blk t).view.emb (ix2 p u))
  rw [hemb, RowDot.rowDots_apply]
  refine (pay_apply (iblk m c 0 t) (iblk m c 1 t) p u).trans ?_
  refine Finset.sum_congr rfl fun k _ => ?_
  rw [ublk_apply m c t p k ⟨_, hr⟩ rfl, xblk_apply m c t k]

/-- An index of the output is in point `t`'s block iff each coordinate is in the block's range on its axis. -/
theorem mem_blk (t : Fin cfg0.N) (i : S6656x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v25).slice (win0_2.rect t)).set ↔ _
  rw [View.set_slice_whole, Rect.mem_set_unit]
  exact Iff.rfl

/-- Every row of the output is in the block of the point `row / 256`. -/
theorem covered (i : S6656x1.Idx) : ∃ t : Fin cfg0.N, (cfg0.win 2).flush t = true ∧ i ∈ ((cfg0.win 2).blk t).view.set := by
  have hN : cfg0.N = 26 := N_0
  have hi0 : (i 0).val < 6656 := (i 0).isLt
  have hi1 : (i 1).val < 1 := (i 1).isLt
  have ht : (i 0).val / 256 < cfg0.N := by rw [hN]; omega
  refine ⟨⟨(i 0).val / 256, ht⟩, flush0_2 _, ?_⟩
  rw [mem_blk]
  obtain ⟨-, -, -, -, e4, e5⟩ := idx_facts ⟨(i 0).val / 256, ht⟩
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 1 ≤ (i 1).val ∧ (i 1).val < win0_2.index ⟨(i 0).val / 256, ht⟩ (1 : Fin 2) * 1 + 1
    rw [e5]; omega

/-- The output array after the run: the column of row dot products, whole. -/
theorem final_out (c : Dev nD) : (dats m 0 c).arrAt 2 cfg0.N = RowDot.rowDots (uArr m c) (xRow m c) :=
  (dats m 0 c).arrAt_eq_of_cover 2 (RowDot.rowDots (uArr m c) (xRow m c)) (fun t _ => flushed_eq m c t) covered

/-- The host line after the region keeps rows `0 … 6560` of that column. -/
theorem tail_eq (c : Dev nD) : Pipeline.afterTail₀ cfgs (dats m) 0 (V0 m) [hostOps1] c main_v26
    = extractStridedSlice S6561x1 ![0, 0] (RowDot.rowDots (uArr m c) (xRow m c)) slices_S6656x1_S6561x1_0_0 := by
  unfold Pipeline.afterTail₀
  show StableHlo.after hostOps1 _ (Proc.devRef .tc main_v26) = _
  after_results
  rw [Pipeline.withArrays_arr spec0 launch0.win.arr_inj c _ _ 2, final_out]

/-- The run, read: the result at the first 6561 row dot products, the arguments unchanged. -/
theorem run : θ_run defs (onTc (τ := τ) (main (F := Ideal))) ⟨m, fun _ => 0, ρ⟩ fun r => ∀ c : Dev nD,
      r.2.mem ((c : Thread nD τ).loc main_v26)
        = extractStridedSlice S6561x1 ![0, 0] (RowDot.rowDots (uArr m c) (xRow m c)) slices_S6656x1_S6561x1_0_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.HostPrefix.lean ====
/-
  The two arrays the region is launched on, read back through the host lines before it.

  The matrix is the Kronecker chain of the `[3, 3]` argument with identity factors, an array of shape `[6561, 6561]`
  (the very operations the reference applies: its stage `val_main_v19`), padded with zeros to `[6656, 6656]` and
  narrowed to bf16, which on the extended reals changes nothing. The row is the `[6561, 1]` argument flattened, padded
  with zeros to 6656 entries and laid out as `[1, 6656]`.
-/
import proofs.«119631_j549755814197_1_alg».proof.Proof.Gen.KernelIdeal.Frame
import proofs.«119631_j549755814197_1_alg».proof.Proof.Gen.ReferenceIdeal.Read
import proofs.«119631_j549755814197_1_alg».proof.Proof.KernelArray
import Idealize.ShloMosaic.Lib.StableHlo.Run
import Idealize.ShloMosaic.Lib.KernelVsHost
import Idealize.ShloMosaic.Lib.ValueLayout

set_option maxRecDepth 16384

noncomputable section

open Idealize.ShloMosaic Idealize.ShloMosaic.TcCoe Idealize.SL.Sem Idealize.ShloMosaic.ValueIdx
open Idealize.ShloMosaic.StableHlo

namespace Cert.KernelIdeal.Hand

open Cert.KernelIdeal Cert.KernelIdeal.Gen

variable (m : (ℓ : Loc nD τ sig) → Buf (Elt Ideal) ℓ)

/-- The Kronecker chain of the `[3, 3]` argument, as the reference's stage spells it. -/
def kronOf (c : Dev nD) : S6561x6561.Idx → EReal :=
  Cert.ReferenceIdeal.Read.val_main_v19 (F := Ideal) (m ((c : Thread nD τ).loc main_arg1))

/-- The zero both pads fill with: the integer constant 0 converted. -/
def padZero : S_.Idx → EReal := sitofp (F := Ideal) .f32 (constantI S_ 32 0#32)

theorem padZero_apply (i : S_.Idx) : padZero i = 0 := by
  show (((0#32 : BitVec 32).toInt : ℝ) : EReal) = 0
  simp

set_option maxHeartbeats 4000000 in
/-- The matrix the region finds: the chain, zero-padded, narrowed. -/
theorem uArr_eq (c : Dev nD) : uArr m c
    = truncf (F := Ideal) .bf16 (pad S6656x6656 ![0, 0] ![95, 95] ![0, 0] (kronOf m c) padZero pads_S6561x6561_S6656x6656_0950_0950 h_S_) bitsLt_bf16_f32 := by
  unfold uArr kronOf padZero
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp
  rfl

set_option maxHeartbeats 4000000 in
/-- The row the region finds: the vector argument flattened, zero-padded, laid out as one row. -/
theorem xRow_eq (c : Dev nD) : xRow m c
    = shapeCast S1x6656 (pad S6656 ![0] ![95] ![0] (shapeCast S6561 (m ((c : Thread nD τ).loc main_arg0) : S6561x1.Idx → EReal) shapeCasts_S6561x1_S6561)
        padZero pads_S6561_S6656_0950 h_S_) shapeCasts_S6656_S1x6656 := by
  unfold xRow padZero
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp
  rfl

end Cert.KernelIdeal.Hand

end
-- ==== Proof.Bridge.lean ====
/-
  The two results are one function of the arguments.

  Row `r < 6561` of the kernel's column is `∑ k < 6656, P (r, k) * q (0, k)` with `P` the zero-padded Kronecker chain
  and `q` the zero-padded vector as a row. For `k ≥ 6561` the row's entry is the pad's zero, so the product vanishes
  (zero times anything is zero on the extended reals) and only `k < 6561` remains, where `P (r, k)` is the chain's
  entry and `q (0, k)` the vector's entry `k`: the reference's contraction `∑ k < 6561, U (r, k) * x (k, 0)`.
-/
import proofs.«119631_j549755814197_1_alg».proof.Proof.HostPrefix

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen

/-- A sum over `N = n + p` indices whose terms vanish from index `n` on is the sum over the first `n`. -/
theorem sum_cut {n p N : ℕ} (hN : n + p = N) (f : Fin N → EReal) (h : ∀ k : Fin N, n ≤ k.val → f k = 0) :
    ∑ k, f k = ∑ k : Fin n, f ⟨k.val, by have := k.isLt; omega⟩ := by
  subst hN
  rw [RowDot.sum_padded f (fun k => h _ (by rw [Fin.coe_natAdd]; omega))]
  rfl

variable (m : (ℓ : Loc nD τ sig) → Buf (Elt Ideal) ℓ)

/-- The vector argument's contents. -/
def xArg (c : Dev nD) : S6561x1.Idx → EReal := m ((c : Thread nD τ).loc main_arg0)

/-- Inside the first 6561 rows and columns the padded matrix is the chain. -/
theorem uArr_apply_in (c : Dev nD) (r k : Fin 6561) (hr : r.val < 6656) (hk : k.val < 6656) :
    uArr m c (ix2 ⟨r.val, hr⟩ ⟨k.val, hk⟩) = kronOf m c (ix2 r k) := by
  rw [uArr_eq]
  show pad S6656x6656 ![0, 0] ![95, 95] ![0, 0] (kronOf m c) padZero pads_S6561x6561_S6656x6656_0950_0950 h_S_ (ix2 ⟨r.val, hr⟩ ⟨k.val, hk⟩) = _
  refine pad_apply_of_inside ![0, 0] ![95, 95] ![0, 0] (kronOf m c) padZero pads_S6561x6561_S6656x6656_0950_0950 h_S_ _ (ix2 r k) fun a => ?_
  match a with
  | ⟨0, _⟩ => show r.val = 0 + r.val * (0 + 1); omega
  | ⟨1, _⟩ => show k.val = 0 + k.val * (0 + 1); omega

/-- Inside its first 6561 entries the padded row is the vector. -/
theorem xRow_apply_in (c : Dev nD) (k : Fin 6561) (hk : k.val < 6656) :
    xRow m c (ix2 (0 : Fin 1) ⟨k.val, hk⟩) = xArg m c (ix2 k (0 : Fin 1)) := by
  rw [xRow_eq]
  refine (shapeCast_a_1a_apply _ shapeCasts_S6656_S1x6656 0 ⟨k.val, hk⟩).trans ?_
  refine (pad_apply_of_inside ![0] ![95] ![0] _ padZero pads_S6561_S6656_0950 h_S_ (ix1 ⟨k.val, hk⟩) (ix1 k) fun a => ?_).trans ?_
  · match a with
    | ⟨0, _⟩ => show k.val = 0 + k.val * (0 + 1); omega
  · exact shapeCast_apply _ shapeCasts_S6561x1_S6561 (ix1 k) (ix2 k (0 : Fin 1)) (by
      rw [Shape.rowMajor_val_two, Shape.rowMajor_val_one]; show k.val * 1 + 0 = k.val; omega)

/-- From entry 6561 on the padded row is zero. -/
theorem xRow_apply_pad (c : Dev nD) (k : Fin 6656) (hk : 6561 ≤ k.val) : xRow m c (ix2 (0 : Fin 1) k) = 0 := by
  rw [xRow_eq]
  refine (shapeCast_a_1a_apply _ shapeCasts_S6656_S1x6656 0 k).trans ?_
  refine (pad_apply_of_not_inside (s := S6561) (t := S6656) ![0] ![95] ![0] _ padZero pads_S6561_S6656_0950 h_S_ (ix1 k) 0 fun hin => ?_).trans (padZero_apply _)
  have h3 : (k.val - 0) / (0 + 1) < 6561 := hin.2.2
  omega

/-- The kernel's result is the reference's last stage of the same arguments. -/
theorem kernel_result_eq (c : Dev nD) :
    extractStridedSlice S6561x1 ![0, 0] (RowDot.rowDots (uArr m c) (xRow m c)) slices_S6656x1_S6561x1_0_0
      = Cert.ReferenceIdeal.Read.val_main_v20 (F := Ideal) (m ((c : Thread nD τ).loc main_arg0)) (m ((c : Thread nD τ).loc main_arg1)) := by
  funext i
  obtain ⟨r, u, rfl⟩ : ∃ (r : Fin 6561) (u : Fin 1), i = ix2 r u := ⟨i 0, i 1, eq_ix2 i⟩
  obtain rfl : u = 0 := Subsingleton.elim _ _
  have hr : r.val < 6656 := by have := r.isLt; omega
  rw [Cert.ReferenceIdeal.Read.val_main_v20_apply]
  refine (extractStridedSlice_apply ![0, 0] _ slices_S6656x1_S6561x1_0_0 (ix2 r (0 : Fin 1)) (ix2 ⟨r.val, hr⟩ (0 : Fin 1)) fun a => ?_).trans ?_
  · match a with
    | ⟨0, _⟩ => show r.val = 0 + r.val; omega
    | ⟨1, _⟩ => rfl
  rw [RowDot.rowDots_apply]
  refine (sum_cut (n := 6561) (p := 95) rfl _ fun k hk => by rw [xRow_apply_pad m c k hk, mul_zero]).trans ?_
  refine Finset.sum_congr rfl fun k _ => ?_
  rw [uArr_apply_in m c r k, xRow_apply_in m c k]
  unfold kronOf xArg
  congr 2 <;> (funext a; match a with | ⟨0, _⟩ => rfl | ⟨1, _⟩ => rfl)

end Cert.KernelIdeal.Hand

end
-- ==== Proof.lean ====
/-
  A matrix–vector product `U x`, with `U` the `[6561, 6561]` Kronecker chain of a `[3, 3]` matrix `M` with identity
  factors, computed two ways.

  The reference contracts `U` with the `[6561, 1]` vector: entry `r` is `∑ k < 6561, U (r, k) * x (k, 0)`. The kernel
  pads `U` with zeros to `[6656, 6656]` (narrowed to bf16, the identity on the extended reals) and `x` to a
  `[1, 6656]` row, and on a grid of 26 points multiplies 256 rows at a time against the row and sums over the lanes; the
  host then keeps the first 6561 entries. For `k ≥ 6561` the padded row is zero, so those products vanish and the two sums
  agree term by term; no finiteness of the inputs is used. Both programs build `U` by the same host operations, and the
  chain is carried as one function of `M`, never opened.

  The frames of the two kernel programs are the generated ones, the reference's frame is its generated run, and the
  idealization rewrote nothing.
-/
import proofs.«119631_j549755814197_1_alg».proof.Defs
import proofs.«119631_j549755814197_1_alg».proof.Proof.Gen.Kernel
import proofs.«119631_j549755814197_1_alg».proof.Proof.Gen.Kernel.Skeleton
import proofs.«119631_j549755814197_1_alg».proof.Proof.Gen.Kernel.Launch
import proofs.«119631_j549755814197_1_alg».proof.Proof.Gen.Kernel.Points
import proofs.«119631_j549755814197_1_alg».proof.Proof.Gen.Kernel.Frame
import proofs.«119631_j549755814197_1_alg».proof.Proof.Gen.KernelIdeal
import proofs.«119631_j549755814197_1_alg».proof.Proof.Gen.KernelIdeal.Skeleton
import proofs.«119631_j549755814197_1_alg».proof.Proof.Gen.KernelIdeal.Launch
import proofs.«119631_j549755814197_1_alg».proof.Proof.Gen.KernelIdeal.Points
import proofs.«119631_j549755814197_1_alg».proof.Proof.Gen.KernelIdeal.Frame
import proofs.«119631_j549755814197_1_alg».proof.Proof.Gen.ReferenceIdeal
import proofs.«119631_j549755814197_1_alg».proof.Proof.Gen.Pre_finite_inputs
import proofs.«119631_j549755814197_1_alg».proof.Proof.Gen.ReferenceIdeal.Run
import proofs.«119631_j549755814197_1_alg».proof.Proof.Gen.ReferenceIdeal.Read
import proofs.«119631_j549755814197_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the reference's last stage of the arguments: the kernel by the row dot products
    of its padded arrays (`kernel_result_eq`), the reference by its own run. -/
theorem algebraic : Cert.algebraic_KernelIdeal_ReferenceIdeal := by
  intro m ρ m' ρ' _ hagree
  refine ⟨fun c => Cert.ReferenceIdeal.Read.val_main_v20 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_result_eq m c), (h c).2⟩)
      (Cert.KernelIdeal.Hand.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
